-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S4096x512 : Shape := ⟨2, ![4096, 512]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S8192x512 32) (main_arg1 : IVec S4096x512 32) (main_arg2 : FVec F S4096 .f32) : IVec S_ 1 :=
  let main_v0 : FVec F S4096 .f32 := Host.absf main_arg2
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  main_v3
-- ==== Kernel.lean ====
abbrev S8192x512 : Shape := ⟨2, ![8192, 512]⟩
abbrev S4096x512 : Shape := ⟨2, ![4096, 512]⟩
abbrev S4096 : Shape := ⟨1, ![4096]⟩
abbrev S1x4096 : Shape := ⟨2, ![1, 4096]⟩
abbrev S8192x4096 : Shape := ⟨2, ![8192, 4096]⟩
abbrev S1024x512 : Shape := ⟨2, ![1024, 512]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .i32⟩
  | .hbm, ⟨1, _⟩ => ⟨S4096x512, .i32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x512, .i32⟩
  | .local _ .vmem, ⟨1, _⟩ => ⟨S1024x512, .i32⟩
  | .local _ .vmem, ⟨2, _⟩ => ⟨S1024x512, .i32⟩
  | .local _ .vmem, ⟨3, _⟩ => ⟨S1024x512, .i32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .i32 = 32 ∨ (Rect.block (s := S8192x512) S1024x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .i32 = 32 ∨ (Rect.block (s := S4096x512) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S4096x512 : Shape := ⟨2, ![4096, 512]⟩
abbrev S4096 : Shape := ⟨1, ![4096]⟩
abbrev S8192x512x1 : Shape := ⟨3, ![8192, 512, 1]⟩
abbrev S8 : Shape := ⟨1, ![8]⟩
abbrev S1x1x8 : Shape := ⟨3, ![1, 1, 8]⟩
abbrev S8192x512x8 : Shape := ⟨3, ![8192, 512, 8]⟩
abbrev S_ : Shape := ⟨0, ![]⟩
abbrev S8192x4096 : Shape := ⟨2, ![8192, 4096]⟩
abbrev S4096x512x1 : Shape := ⟨3, ![4096, 512, 1]⟩
abbrev S4096x512x8 : Shape := ⟨3, ![4096, 512, 8]⟩
abbrev S4096x4096 : Shape := ⟨2, ![4096, 4096]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .i32⟩
  | .hbm, ⟨1, _⟩ => ⟨S4096x512, .i32⟩
  | .hbm, ⟨2, _⟩ => ⟨S4096, .f32⟩
  | .hbm, ⟨3, _⟩ => ⟨S8192x512x1, .i32⟩
  | .hbm, ⟨4, _⟩ => ⟨S8, .i32⟩
  | .hbm, ⟨5, _⟩ => ⟨S1x1x8, .i32⟩
  | .hbm, ⟨6, _⟩ => ⟨S8192x512x8, .i32⟩
  | .hbm, ⟨7, _⟩ => ⟨S8192x512x8, .i32⟩
  | .hbm, ⟨8, _⟩ => ⟨S8192x512x8, .i32⟩
  | .hbm, ⟨9, _⟩ => ⟨S_, .i32⟩
  | .hbm, ⟨10, _⟩ => ⟨S8192x512x8, .i32⟩
  | .hbm, ⟨11, _⟩ => ⟨S8192x512x8, .i32⟩
  | .hbm, ⟨12, _⟩ => ⟨S8192x4096, .i32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S4096x512x1, .i32⟩
  | .hbm, ⟨22, _⟩ => ⟨S8, .i32⟩
  | .hbm, ⟨23, _⟩ => ⟨S1x1x8, .i32⟩
  | .hbm, ⟨24, _⟩ => ⟨S4096x512x8, .i32⟩
  | .hbm, ⟨25, _⟩ => ⟨S4096x512x8, .i32⟩
  | .hbm, ⟨26, _⟩ => ⟨S4096x512x8, .i32⟩
  | .hbm, ⟨27, _⟩ => ⟨S_, .i32⟩
  | .hbm, ⟨28, _⟩ => ⟨S4096x512x8, .i32⟩
  | .hbm, ⟨29, _⟩ => ⟨S4096x512x8, .i32⟩
  | .hbm, ⟨30, _⟩ => ⟨S4096x4096, .i32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | _, _ => ⟨S8192x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S8192x512_S8192x512x1_0_1 : S8192x512.BroadcastsInDim S8192x512x1 (![0, 1] : Fin 2 → Fin S8192x512x1.rank)
  bcast_S8_S1x1x8_2 : S8.BroadcastsInDim S1x1x8 (![2] : Fin 1 → Fin S1x1x8.rank)
  bcast_S8192x512x1_S8192x512x8_0_1_2 : S8192x512x1.BroadcastsInDim S8192x512x8 (![0, 1, 2] : Fin 3 → Fin S8192x512x8.rank)
  bcast_S1x1x8_S8192x512x8_0_1_2 : S1x1x8.BroadcastsInDim S8192x512x8 (![0, 1, 2] : Fin 3 → Fin S8192x512x8.rank)
  bcast_S_S8192x512x8 : S_.BroadcastsInDim S8192x512x8 (![] : Fin 0 → Fin S8192x512x8.rank)
  shapeCasts_S8192x512x8_S8192x4096 : S8192x512x8.ShapeCasts S8192x4096
  bcast_S_S8192x4096 : S_.BroadcastsInDim S8192x4096 (![] : Fin 0 → Fin S8192x4096.rank)
  bcast_S4096x512_S4096x512x1_0_1 : S4096x512.BroadcastsInDim S4096x512x1 (![0, 1] : Fin 2 → Fin S4096x512x1.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Signs.lean ====
/-
  One bit of a packed word as a sign.  A packed 32-bit word `x` carries, in its bit `k` (for `k` below 8), one
  feature of a ±1 vector: the feature is `+1` when the bit is set and `-1` when it is clear.  Both programs read the
  bit the same way, as the lowest bit of the word shifted right arithmetically by `k`; they differ in how they turn it
  into a number.  The kernel tests the masked word against zero and selects between the constants `1` and `-1`; the
  reference converts the masked word (which is `0` or `1`) to a float `v` and computes `2·v - 1`.  This module states
  the common value, `bitSign x k`, and proves that each spelling equals it.
-/
import Idealize.ShloMosaic.PureOps.Ideal
import Idealize.ShloMosaic.Lib.ValueIdx

noncomputable section

namespace Cert.BitLinear

open Idealize.ShloMosaic

/-- The sign that bit `k` of the word `x` stands for: `-1` when the bit is clear, `+1` when it is set.  The bit is read as
    the lowest bit of `x` shifted right (arithmetically) by `k`. -/
def bitSign (x : BitVec 32) (k : Nat) : EReal := if (x.sshiftRight k) &&& 1#32 = 0#32 then -1 else 1

/-! ## The float constants the two programs spell -/

/-- The bf16 pattern `0x3F80` denotes `1`. -/
theorem bf16_one : Ideal.ofBits .bf16 0x3F80#16 = 1 := by
  simp [Ideal.ofBits, Ideal.ieee, -EReal.coe_mul]; norm_num

/-- The bf16 pattern `0xBF80` denotes `-1`. -/
theorem bf16_neg_one : Ideal.ofBits .bf16 0xBF80#16 = -1 := by
  simp [Ideal.ofBits, Ideal.ieee, -EReal.coe_mul]; norm_num

/-- The f32 pattern `0x3F800000` denotes `1`. -/
theorem f32_one : Ideal.ofBits .f32 0x3F800000#32 = 1 := by
  simp [Ideal.ofBits, Ideal.ieee, -EReal.coe_mul]; norm_num

/-- The f32 pattern `0x40000000` denotes `2`. -/
theorem f32_two : Ideal.ofBits .f32 0x40000000#32 = 2 := by
  simp [Ideal.ofBits, Ideal.ieee, -EReal.coe_mul]; norm_num; rfl

/-- On the extended reals, `2 - 1 = 1` (computed among the reals). -/
theorem two_sub_one : (2 : EReal) - 1 = 1 := by
  have h : ((2 : ℝ) : EReal) - ((1 : ℝ) : EReal) = ((1 : ℝ) : EReal) := by rw [← EReal.coe_sub]; norm_num
  exact h

/-! ## Shifts by an amount below the width -/

/-- On the vector unit an arithmetic shift by a literal amount below 32 is the plain arithmetic shift. -/
theorem shrsi_vector (x : BitVec 32) (k : Nat) (hk : k < 32) :
    IntOp.shrsi .vector x (BitVec.ofNat 32 k) = x.sshiftRight k := by
  have hk' : (BitVec.ofNat 32 k).toNat = k := by
    rw [BitVec.toNat_ofNat]; exact Nat.mod_eq_of_lt (by omega)
  unfold IntOp.shrsi
  rw [if_pos (by rw [hk']; exact hk), BitVec.sshiftRight', hk']

/-- The host's arithmetic shift by an amount below 32 is the same plain arithmetic shift. -/
theorem shrsi_host (x : BitVec 32) (k : Nat) (hk : k < 32) :
    IntOp.shrsi .host x (BitVec.ofNat 32 k) = x.sshiftRight k := by
  have hk' : (BitVec.ofNat 32 k).toNat = k := by
    rw [BitVec.toNat_ofNat]; exact Nat.mod_eq_of_lt (by omega)
  unfold IntOp.shrsi
  rw [if_pos (by rw [hk']; exact hk), BitVec.sshiftRight', hk']

/-- A word masked to its lowest bit is `0` or `1`. -/
theorem and_one_cases (y : BitVec 32) : y &&& 1#32 = 0#32 ∨ y &&& 1#32 = 1#32 := by
  rw [BitVec.and_one_eq_setWidth_ofBool_getLsbD]
  cases y.getLsbD 0
  · left; rfl
  · right; rfl

/-! ## The two spellings of a bit's sign -/

/-- The kernel's spelling: the masked, shifted word compared against zero selects `1` or `-1`. -/
theorem kernel_sign (x : BitVec 32) (k : Nat) (hk : k < 32) :
    Scalar.select (IntOp.cmpi .ne (IntOp.andi (IntOp.shrsi .vector x (BitVec.ofNat 32 k)) 1#32) 0#32)
      (Ideal.ofBits .bf16 0x3F80#16) (Ideal.ofBits .bf16 0xBF80#16) = bitSign x k := by
  rw [shrsi_vector x k hk, bf16_one, bf16_neg_one]
  unfold bitSign IntOp.andi IntOp.cmpi Scalar.select
  rcases and_one_cases (x.sshiftRight k) with h | h
  · rw [h]; simp
  · rw [h]; simp

/-- The reference's spelling: twice the masked, shifted word (converted to a float) less one. -/
theorem reference_sign (x : BitVec 32) (k : Nat) (hk : k < 32) :
    Ideal.ofBits .f32 0x40000000#32
        * (((IntOp.andi (IntOp.shrsi .host x (BitVec.ofNat 32 k)) 1#32).toInt : ℝ) : EReal)
      - Ideal.ofBits .f32 0x3F800000#32 = bitSign x k := by
  rw [shrsi_host x k hk, f32_one, f32_two]
  unfold bitSign IntOp.andi
  rcases and_one_cases (x.sshiftRight k) with h | h
  · rw [h]; simp
  · rw [h]; simp
    exact two_sub_one

end Cert.BitLinear

end
-- ==== Proof.Spec.lean ====
/-
  The result both programs compute, as one function of the argument arrays.

  The packed input `a` is an 8192 × 512 array of words and the packed weight `w` a 4096 × 512 array of words; word
  `p` of a row carries eight ±1 features in its bits 0 to 7 (`bitSign`).  Entry `(r, c)` of the result is the dot
  product of row `r` of the input with row `c` of the weight over all 512 · 8 features, plus `bias c`:

      result a w bias (r, c) = (∑ b < 8, ∑ p < 512, bitSign (a r p) b · bitSign (w c p) b) + bias c.

  The kernel forms the sum bit plane by bit plane (for each `b`, one product of 512-long sign rows); the reference
  unpacks every row into its 4096 features, feature `8·p + b` being bit `b` of word `p`, and takes one product over
  `k < 4096`.  `sum_features` is the law between the two orders: a sum over `k < 4096` of a term in `(k / 8, k % 8)` is
  the double sum over the bit and the word.  Only commutativity and associativity of addition are used, so nothing
  here needs the summands to be finite.
-/
import proofs.«420022_j77558519431327_1_alg».proof.Proof.Signs
import Idealize.ShloMosaic.Lib.ValueIdx

noncomputable section

namespace Cert.BitLinear

open Idealize.ShloMosaic Idealize.ShloMosaic.ValueIdx
open scoped BigOperators

/-- Entry `(r, c)` of the result: the ±1 dot product of input row `r` and weight row `c`, summed bit plane by bit
    plane, plus the bias of column `c`. -/
def entry (a : (⟨2, ![8192, 512]⟩ : Shape).Idx → BitVec 32) (w : (⟨2, ![4096, 512]⟩ : Shape).Idx → BitVec 32)
    (bias : (⟨1, ![4096]⟩ : Shape).Idx → EReal) (r : Fin 8192) (c : Fin 4096) : EReal :=
  (∑ b : Fin 8, ∑ p : Fin 512, bitSign (a (ix2 r p)) b.val * bitSign (w (ix2 c p)) b.val) + bias (ix1 c)

/-- The whole result array. -/
def result (a : (⟨2, ![8192, 512]⟩ : Shape).Idx → BitVec 32) (w : (⟨2, ![4096, 512]⟩ : Shape).Idx → BitVec 32)
    (bias : (⟨1, ![4096]⟩ : Shape).Idx → EReal) : (⟨2, ![8192, 4096]⟩ : Shape).Idx → EReal :=
  fun i => entry a w bias (i 0) (i 1)

/-- Feature `k` of an unpacked row lies in word `k / 8`. -/
abbrev wordOf (k : Fin 4096) : Fin 512 := ⟨k.val / 8, by have := k.isLt; omega⟩

/-- A sum over the 4096 features, whose term depends on the feature's word `k / 8` and its bit `k % 8`, is the sum
    over the eight bit planes of the sums over the 512 words. -/
theorem sum_features {M : Type*} [AddCommMonoid M] (f : Fin 512 → Nat → M) :
    ∑ k : Fin 4096, f (wordOf k) (k.val % 8) = ∑ b : Fin 8, ∑ p : Fin 512, f p b.val := by
  rw [← Equiv.sum_comp (finProdFinEquiv (m := 512) (n := 8)) (fun k : Fin 4096 => f (wordOf k) (k.val % 8)),
    Fintype.sum_prod_type, Finset.sum_comm]
  refine Finset.sum_congr rfl fun b _ => Finset.sum_congr rfl fun p _ => ?_
  have hb := b.isLt
  have hp := p.isLt
  have hw : wordOf (finProdFinEquiv (m := 512) (n := 8) (p, b)) = p :=
    Fin.ext (by show (b.val + 8 * p.val) / 8 = p.val; omega)
  have hm : (finProdFinEquiv (m := 512) (n := 8) (p, b)).val % 8 = b.val := by
    show (b.val + 8 * p.val) % 8 = b.val; omega
  rw [hw, hm]

end Cert.BitLinear

end
-- ==== Proof.KernelBlock.lean ====
/-
  What the kernel's body stores, read at an index.

  The body loads a 1024 × 512 block `a` of packed input words, a 1024 × 512 block `w` of packed weight words and a
  1 × 1024 row `bz` of the bias.  For each bit `k = 0 … 7` it masks bit `k` of every word (`bitMask`), turns the mask into
  a block of signs `±1` (`signRows`), and multiplies the input's sign block with the transposed weight's sign block
  into a zero accumulator (`planeProduct`): entry `(p, q)` of that product is the sum over the 512 words `j` of
  `bitSign (a p j) k · bitSign (w q j) k`.  The eight products are added one after the other onto a zero block, the
  bias row is broadcast over the rows and added last, and the sum is stored over the whole output block.  So entry
  `(p, q)` of the stored block is `(∑ k < 8, ∑ j < 512, bitSign (a p j) k · bitSign (w q j) k) + bz q`.
-/
import proofs.«420022_j77558519431327_1_alg».proof.Proof.Gen.KernelIdeal.Skeleton
import proofs.«420022_j77558519431327_1_alg».proof.Proof.Spec
import Idealize.ShloMosaic.Lib.ValueLayout
import Idealize.ShloMosaic.Lib.ValueIdx
import Idealize.ShloMosaic.PureOps.Ideal.Laws

noncomputable section

namespace Cert.KernelIdeal.Block

open Cert.KernelIdeal Cert.KernelIdeal.Gen Cert.BitLinear
open Idealize.ShloMosaic Idealize.ShloMosaic.ValueIdx
open scoped BigOperators

/-! ## The body's value as eight plane products and a bias row (at any float instance) -/

section AnyInstance
variable {F : FTy → Type} [FloatOps F]

/-- The mask of bit `k`: one where the word, shifted right by `k` and masked to its lowest bit, is not zero. -/
def bitMask (x : IVec S1024x512 32) (k : Nat) : IVec S1024x512 1 :=
  cmpi .ne (andi (shrsi x (broadcast S1024x512 (BitVec.ofNat 32 k))) (broadcast S1024x512 1#32)) (broadcast S1024x512 0#32)

/-- A mask as a block of signs: `1` where the mask is set, `-1` where it is clear. -/
def signRows (c : IVec S1024x512 1) : FVec F S1024x512 .bf16 :=
  select c (broadcast S1024x512 (Scalar.ofBits .bf16 0x3F80#16)) (broadcast S1024x512 (Scalar.ofBits .bf16 0xBF80#16))

/-- One bit plane's product: the input's signs times the transposed weight's signs, into a zero accumulator. -/
def planeProduct (ca cw : IVec S1024x512 1) : FVec F S1024x1024 .f32 :=
  matmul dot_S1024x512_S512x1024_S1024x1024_1_0_0_1_n_n none (signRows ca)
    (transpose S512x1024 [1, 0] (signRows cw) transposes_S1024x512_p1_0_S512x1024)
    (constant S1024x1024 .f32 0x00000000#32)

set_option maxRecDepth 65536 in
/-- The stored value is the eight plane products added in order onto a zero block, plus the broadcast bias row: the
    body's operations regrouped, nothing computed. -/
theorem payload_eq (a w : Vec F S1024x512 .i32) (bz : Vec F S1x1024 .f32) :
    k0_pay1 w (k0_pay11 a w (k0_pay9 a w (k0_pay5 a w (k0_pay2 a w) (k0_pay3 a) (k0_pay4 w)) (k0_pay6 a) (k0_pay7 w)
        k0_pay8) (k0_pay10 a) 5#32) (k0_pay12 a) bz
      = addf (addf (addf (addf (addf (addf (addf (addf (addf
          (broadcast S1024x1024 (Scalar.ofBits .f32 0x00000000#32))
          (planeProduct (bitMask a 0) (bitMask w 0)))
          (planeProduct (bitMask a 1) (bitMask w 1)))
          (planeProduct (bitMask a 2) (bitMask w 2)))
          (planeProduct (bitMask a 3) (bitMask w 3)))
          (planeProduct (bitMask a 4) (bitMask w 4)))
          (planeProduct (bitMask a 5) (bitMask w 5)))
          (planeProduct (bitMask a 6) (bitMask w 6)))
          (planeProduct (bitMask a 7) (bitMask w 7)))
          (broadcastTo S1024x1024 (shapeCast S1x1024 bz shapeCasts_S1x1024_S1x1024) broadcasts_S1x1024_S1024x1024) :=
  rfl

end AnyInstance

/-! ## The plane product read at an index, at the ideal values -/

/-- A sign block at an index is the sign of the word's bit. -/
theorem signRows_apply (x : IVec S1024x512 32) (k : Nat) (hk : k < 32) (i : S1024x512.Idx) :
    signRows (F := Ideal) (bitMask x k) i = bitSign (x i) k :=
  kernel_sign (x i) k hk

/-- The left operand's row is the output's row. -/
theorem lhs_axis0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- The left operand's column is the contraction index. -/
theorem lhs_axis1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- The right operand's row is the contraction index. -/
theorem rhs_axis0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- The right operand's column is the output's column. -/
theorem rhs_axis1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- Entry `(p, q)` of bit plane `k`'s product: the sum over the 512 words of the product of the two bits' signs. -/
theorem planeProduct_apply (a w : IVec S1024x512 32) (k : Nat) (hk : k < 32) (p q : Fin 1024) :
    planeProduct (F := Ideal) (bitMask a k) (bitMask w k) (ix2 p q)
      = ∑ j : Fin 512, bitSign (a (ix2 p j)) k * bitSign (w (ix2 q j)) k := by
  unfold planeProduct
  simp only [matmul]
  rw [Ideal.matmul_constant_zero_apply,
    ← Equiv.sum_comp (contrEquiv1 dot_S1024x512_S512x1024_S1024x1024_1_0_0_1_n_n 512 rfl rfl).symm]
  refine Finset.sum_congr rfl fun j _ => ?_
  have hj := contrEquiv1_symm_val dot_S1024x512_S512x1024_S1024x1024_1_0_0_1_n_n 512 rfl rfl j
  have el : dot_S1024x512_S512x1024_S1024x1024_1_0_0_1_n_n.lhsIdx (ix2 p q) ((contrEquiv1 dot_S1024x512_S512x1024_S1024x1024_1_0_0_1_n_n 512 rfl rfl).symm j) = ix2 p j := funext fun x => Fin.ext (by
    match x with
    | ⟨0, _⟩ => exact lhs_axis0 _ _
    | ⟨1, _⟩ => exact (lhs_axis1 _ _).trans hj)
  have er : dot_S1024x512_S512x1024_S1024x1024_1_0_0_1_n_n.rhsIdx (ix2 p q) ((contrEquiv1 dot_S1024x512_S512x1024_S1024x1024_1_0_0_1_n_n 512 rfl rfl).symm j) = ix2 j q := funext fun x => Fin.ext (by
    match x with
    | ⟨0, _⟩ => exact (rhs_axis0 _ _).trans hj
    | ⟨1, _⟩ => exact rhs_axis1 _ _)
  rw [el, er, transpose_ix2_apply, signRows_apply a k hk, signRows_apply w k hk]

/-! ## The stored block at an index -/

/-- Entry `(p, q)` of the block the body stores: the ±1 dot product of row `p` of the input block and row `q` of the
    weight block over all eight bit planes, plus the bias row's entry `q`. -/
theorem stored_apply (a w : IVec S1024x512 32) (bz : FVec Ideal S1x1024 .f32) (p q : Fin 1024) :
    k0_pay1 (F := Ideal) w (k0_pay11 (F := Ideal) a w (k0_pay9 (F := Ideal) a w (k0_pay5 (F := Ideal) a w
        (k0_pay2 (F := Ideal) a w) (k0_pay3 (F := Ideal) a) (k0_pay4 (F := Ideal) w)) (k0_pay6 (F := Ideal) a)
        (k0_pay7 (F := Ideal) w) k0_pay8) (k0_pay10 (F := Ideal) a) 5#32) (k0_pay12 (F := Ideal) a) bz (ix2 p q)
      = (∑ b : Fin 8, ∑ j : Fin 512, bitSign (a (ix2 p j)) b.val * bitSign (w (ix2 q j)) b.val) + bz (ix2 (0 : Fin 1) q) := by
  rw [payload_eq]
  simp only [addf_apply, broadcast_apply]
  rw [planeProduct_apply a w 0 (by omega) p q, planeProduct_apply a w 1 (by omega) p q,
    planeProduct_apply a w 2 (by omega) p q, planeProduct_apply a w 3 (by omega) p q,
    planeProduct_apply a w 4 (by omega) p q, planeProduct_apply a w 5 (by omega) p q,
    planeProduct_apply a w 6 (by omega) p q, planeProduct_apply a w 7 (by omega) p q,
    broadcastTo_1b_ab_apply, shapeCast_self, Fin.sum_univ_eight]
  show Ideal.ofBits .f32 0x00000000#32 + _ + _ + _ + _ + _ + _ + _ + _ + _ = _
  rw [Ideal.ofBits_zero_f32, zero_add]
  rfl

end Cert.KernelIdeal.Block

end
-- ==== Proof.KernelValue.lean ====
/-
  From the blocks to the whole result array.

  The grid has 8 × 4 points.  At point `(i, j)` the body sees rows `1024·i … 1024·i + 1023` of the packed input (all 512
  words), rows `1024·j … 1024·j + 1023` of the packed weight, columns `1024·j … 1024·j + 1023` of the bias row (the bias
  vector, reshaped by the host into one row before the call), and writes block `(i, j)` of the 8192 × 4096 result.  By
  the block's value (`stored_apply`), entry `(p, q)` of what point `(i, j)` writes back is `entry` of the whole argument
  arrays at row `1024·i + p` and column `1024·j + q`: the written block is block `(i, j)` of `result`.  The 32 blocks tile
  the array (the point covering `(r, c)` is `(r / 1024, c / 1024)`), so the array ends holding `result` everywhere.
-/
import proofs.«420022_j77558519431327_1_alg».proof.Proof.Gen.KernelIdeal.Value
import proofs.«420022_j77558519431327_1_alg».proof.Proof.KernelBlock
import Idealize.ShloMosaic.Lib.StableHlo.Run
import Idealize.ShloMosaic.Lib.ValueLayout

set_option maxRecDepth 16384

noncomputable section

namespace Cert.KernelIdeal.ArrayValue

open Cert.KernelIdeal Cert.KernelIdeal.Gen Cert.KernelIdeal.Value Cert.KernelIdeal.Block Cert.BitLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body's accesses start at the corner of their buffers. -/
theorem zero_offsets : (![0, 0] : Fin 2 → Nat) = fun _ => 0 := funext fun a => by fin_cases a <;> rfl

/-- The three argument arrays on core `c`, at their literal types. -/
abbrev inputWords (c : Dev nD) : IVec S8192x512 32 := m ((c : Thread nD τ).loc main_arg0)
abbrev weightWords (c : Dev nD) : IVec S4096x512 32 := m ((c : Thread nD τ).loc main_arg1)
abbrev biasVec (c : Dev nD) : FVec Ideal S4096 .f32 := m ((c : Thread nD τ).loc main_arg2)

/-- The kernel's result array as one function of its argument arrays. -/
abbrev kernelResult (c : Dev nD) : S8192x4096.Idx → EReal :=
  result (inputWords m c) (weightWords m c) (biasVec m c)

/-- The three input blocks at a grid point, at their literal types. -/
abbrev inBlock (c : Dev nD) (t : Fin cfg0.N) : Vec Ideal S1024x512 .i32 := iblk m c 0 t
abbrev wtBlock (c : Dev nD) (t : Fin cfg0.N) : Vec Ideal S1024x512 .i32 := iblk m c 1 t
abbrev biasBlock (c : Dev nD) (t : Fin cfg0.N) : Vec Ideal S1x1024 .f32 := iblk m c 2 t

/-- The bias as the call finds it: the host has reshaped the bias vector into one row. -/
theorem bias_row (c : Dev nD) :
    (V m c main_v0 : S1x4096.Idx → EReal) = shapeCast S1x4096 (biasVec m c) shapeCasts_S4096_S1x4096 := by
  dsimp only [V, hostOps0]; after_results; rfl

/-- The printed index maps over the 32 grid points: the input's row block and the output's row block move together, the
    weight's row block and the bias's column block move with the output's column block, and the other block indices
    are zero; the output's block indices range over 8 × 4. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3)

/-- Every block of the 8 × 4 tiling is some grid point's. -/
theorem index_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-! ## The input blocks read through their windows -/

/-- Row `p` of the input block at point `t` is row `r` of the input array, `r` the output block's row offset plus `p`. -/
theorem inBlock_apply (c : Dev nD) (t : Fin cfg0.N) (p : Fin 1024) (j : Fin 512) (r : Fin 8192)
    (hr : r.val = win0_3.index t (0 : Fin 2) * 1024 + 1 * p.val) :
    inBlock m c t (ix2 p j) = inputWords m c (ix2 r j) := by
  obtain ⟨e0, e1, -⟩ := index_facts t
  refine Eq.trans ?_ (congrFun (V_main_arg0 m c) (ix2 r j))
  show V m c main_arg0 (((cfg0.win 0).blk t).view.emb (ix2 p j)) = V m c main_arg0 (ix2 r j)
  refine congrArg _ (funext fun x => Fin.ext ?_)
  match x with
  | ⟨0, _⟩ => show win0_0.index t (0 : Fin 2) * 1024 + 1 * p.val = r.val; omega
  | ⟨1, _⟩ => show win0_0.index t (1 : Fin 2) * 512 + 1 * j.val = j.val; omega

/-- Row `q` of the weight block at point `t` is row `cc` of the weight array, `cc` the output block's column offset plus `q`. -/
theorem wtBlock_apply (c : Dev nD) (t : Fin cfg0.N) (q : Fin 1024) (j : Fin 512) (cc : Fin 4096)
    (hc : cc.val = win0_3.index t (1 : Fin 2) * 1024 + 1 * q.val) :
    wtBlock m c t (ix2 q j) = weightWords m c (ix2 cc j) := by
  obtain ⟨-, -, e2, e3, -⟩ := index_facts t
  refine Eq.trans ?_ (congrFun (V_main_arg1 m c) (ix2 cc j))
  show V m c main_arg1 (((cfg0.win 1).blk t).view.emb (ix2 q j)) = V m c main_arg1 (ix2 cc j)
  refine congrArg _ (funext fun x => Fin.ext ?_)
  match x with
  | ⟨0, _⟩ => show win0_1.index t (0 : Fin 2) * 1024 + 1 * q.val = cc.val; omega
  | ⟨1, _⟩ => show win0_1.index t (1 : Fin 2) * 512 + 1 * j.val = j.val; omega

/-- Entry `q` of the bias block at point `t` is entry `cc` of the bias vector. -/
theorem biasBlock_apply (c : Dev nD) (t : Fin cfg0.N) (q : Fin 1024) (cc : Fin 4096)
    (hc : cc.val = win0_3.index t (1 : Fin 2) * 1024 + 1 * q.val) :
    biasBlock m c t (ix2 (0 : Fin 1) q) = biasVec m c (ix1 cc) := by
  obtain ⟨-, -, -, -, e4, e5, -⟩ := index_facts t
  have hrow : V m c main_v0 (ix2 (0 : Fin 1) cc) = biasVec m c (ix1 cc) := by
    rw [bias_row]; exact shapeCast_a_1a_apply _ _ _ _
  refine Eq.trans ?_ hrow
  show V m c main_v0 (((cfg0.win 2).blk t).view.emb (ix2 (0 : Fin 1) q)) = V m c main_v0 (ix2 (0 : Fin 1) cc)
  refine congrArg _ (funext fun x => Fin.ext ?_)
  match x with
  | ⟨0, _⟩ => show win0_2.index t (0 : Fin 2) * 1 + 1 * 0 = 0; omega
  | ⟨1, _⟩ => show win0_2.index t (1 : Fin 2) * 1024 + 1 * q.val = cc.val; omega

/-! ## What a point writes back -/

/-- The body's stored block at point `t`, entry `(p, q)`, is `entry` of the argument arrays at the array's row `r` and
    column `cc` that the block's entry lands on. -/
theorem stored_entry (c : Dev nD) (t : Fin cfg0.N) (p q : Fin 1024) (r : Fin 8192) (cc : Fin 4096)
    (hr : r.val = win0_3.index t (0 : Fin 2) * 1024 + 1 * p.val)
    (hc : cc.val = win0_3.index t (1 : Fin 2) * 1024 + 1 * q.val) :
    k0_pay1 (F := Ideal) (wtBlock m c t) (k0_pay11 (F := Ideal) (inBlock m c t) (wtBlock m c t)
        (k0_pay9 (F := Ideal) (inBlock m c t) (wtBlock m c t) (k0_pay5 (F := Ideal) (inBlock m c t) (wtBlock m c t)
          (k0_pay2 (F := Ideal) (inBlock m c t) (wtBlock m c t)) (k0_pay3 (F := Ideal) (inBlock m c t))
          (k0_pay4 (F := Ideal) (wtBlock m c t))) (k0_pay6 (F := Ideal) (inBlock m c t))
          (k0_pay7 (F := Ideal) (wtBlock m c t)) k0_pay8) (k0_pay10 (F := Ideal) (inBlock m c t)) 5#32)
        (k0_pay12 (F := Ideal) (inBlock m c t)) (biasBlock m c t) (ix2 p q)
      = entry (inputWords m c) (weightWords m c) (biasVec m c) r cc := by
  refine (stored_apply (inBlock m c t) (wtBlock m c t) (biasBlock m c t) p q).trans ?_
  unfold entry
  rw [biasBlock_apply m c t q cc hc]
  refine congrArg (· + biasVec m c (ix1 cc)) ?_
  refine Finset.sum_congr rfl fun b _ => Finset.sum_congr rfl fun j _ => ?_
  rw [inBlock_apply m c t p j r hr, wtBlock_apply m c t q j cc hc]

/-- What point `t` writes back is block `t` of `kernelResult`. -/
theorem flushed_eq (c : Dev nD) (t : Fin cfg0.N) :
    (dats m 0 c).flushed 3 t = ((cfg0.win 3).blk t).view.read (Elt Ideal) (kernelResult m c) := by
  rw [flushed3]
  unfold out0_3
  rw [View.canon_unit_zero zero_offsets]
  simp only [View.ld_unit_zero (S := S1024x512) zero_offsets, View.ld_unit_zero (S := S1x1024) zero_offsets]
  funext y
  obtain ⟨p, q, rfl⟩ : ∃ (p : Fin 1024) (q : Fin 1024), y = ix2 p q := ⟨y 0, y 1, eq_ix2 y⟩
  exact stored_entry m c t p q _ _ rfl rfl

/-! ## The blocks tile the array -/

/-- An index of the result array is in point `t`'s block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the result array is in some point's block: entry `(r, c)` in the block of point
    `(r / 1024, c / 1024)`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the run is `kernelResult`. -/
theorem final (c : Dev nD) : (dats m 0 c).arrAt 3 cfg0.N = kernelResult m c :=
  (dats m 0 c).arrAt_eq_of_cover 3 (kernelResult m c) (fun t _ => flushed_eq m c t) covered

/-! ## The run -/

/-- Every weakly fair execution of the kernel's program terminates with the result array at `kernelResult` and the
    arguments unchanged. -/
theorem run : θ_run defs (onTc (τ := τ) (main (F := Ideal))) ⟨m, fun _ => 0, ρ⟩ fun r => ∀ c : Dev nD,
      r.2.mem ((c : Thread nD τ).loc main_v1) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.RefValue.lean ====
/-
  The reference computes `result`.

  The reference unpacks each packed row into 4096 features: it broadcasts the word array along a new axis of length 8,
  shifts each copy right by its position `0 … 7` on that axis, masks the lowest bit, and reshapes `[rows, 512, 8]` to
  `[rows, 4096]`, so feature `k` of a row is bit `k % 8` of word `k / 8`; converted to a float `v` the feature becomes
  `2·v - 1`, which is that bit's sign (`reference_sign`).  The product of the two unpacked arrays contracts the feature
  axis; regrouped by bit plane and word (`sum_features`) it is the sum in `entry`.  The bias row is broadcast over the
  rows and added last.
-/
import proofs.«420022_j77558519431327_1_alg».proof.Proof.Gen.ReferenceIdeal.Read
import proofs.«420022_j77558519431327_1_alg».proof.Proof.Spec

noncomputable section

namespace Cert.ReferenceIdeal.RefValue

open Cert.ReferenceIdeal Cert.ReferenceIdeal.Gen Cert.ReferenceIdeal.Read Cert.BitLinear
open Idealize.ShloMosaic Idealize.ShloMosaic.ValueIdx
open scoped BigOperators

/-- Entry `(r, k)` of the unpacked input: the sign of bit `k % 8` of word `k / 8` of row `r`. -/
theorem input_feature (x0 : IVec S8192x512 32) (j : S8192x4096.Idx) :
    val_main_v14 (F := Ideal) x0 j = bitSign (x0 (ix2 (j 0) (wordOf (j 1)))) ((j 1).val % 8) := by
  have h0 : (j 0).val < 8192 := (j 0).isLt
  have h1 : (j 1).val < 4096 := (j 1).isLt
  rw [val_main_v14_apply, val_main_v13_apply, val_main_v11_apply, val_main_v10_apply, val_main_cst_apply,
    val_main_v12_apply, val_main_cst_0_apply, val_main_v9_apply, val_main_v8_apply, val_main_v7_apply,
    val_main_v5_apply, val_main_v6_apply, val_main_c_apply, val_main_v3_apply, val_main_v0_apply,
    val_main_v4_apply, val_main_v2_apply, val_main_v1_apply]
  have e1 : idx_main_v0 (idx_main_v3 (idx_main_v8 j)) = ix2 (j 0) (wordOf (j 1)) := funext fun a => Fin.ext (by
    match a with
    | ⟨0, _⟩ => show ((j 0).val * 4096 + (j 1).val) / 4096 = (j 0).val; omega
    | ⟨1, _⟩ => show ((j 0).val * 4096 + (j 1).val) / 8 % 512 = (j 1).val / 8; omega)
  have e2 : ((idx_main_v2 (idx_main_v4 (idx_main_v8 j))) 0).val = (j 1).val % 8 := by
    show ((j 0).val * 4096 + (j 1).val) % 8 = (j 1).val % 8; omega
  rw [e1, e2]
  exact reference_sign _ _ (by omega)

/-- Entry `(c, k)` of the unpacked weight: the sign of bit `k % 8` of word `k / 8` of row `c`. -/
theorem weight_feature (x1 : IVec S4096x512 32) (j : S4096x4096.Idx) :
    val_main_v29 (F := Ideal) x1 j = bitSign (x1 (ix2 (j 0) (wordOf (j 1)))) ((j 1).val % 8) := by
  have h0 : (j 0).val < 4096 := (j 0).isLt
  have h1 : (j 1).val < 4096 := (j 1).isLt
  rw [val_main_v29_apply, val_main_v28_apply, val_main_v26_apply, val_main_v25_apply, val_main_cst_2_apply,
    val_main_v27_apply, val_main_cst_3_apply, val_main_v24_apply, val_main_v23_apply, val_main_v22_apply,
    val_main_v20_apply, val_main_v21_apply, val_main_c_1_apply, val_main_v18_apply, val_main_v15_apply,
    val_main_v19_apply, val_main_v17_apply, val_main_v16_apply]
  have e1 : idx_main_v15 (idx_main_v18 (idx_main_v23 j)) = ix2 (j 0) (wordOf (j 1)) := funext fun a => Fin.ext (by
    match a with
    | ⟨0, _⟩ => show ((j 0).val * 4096 + (j 1).val) / 4096 = (j 0).val; omega
    | ⟨1, _⟩ => show ((j 0).val * 4096 + (j 1).val) / 8 % 512 = (j 1).val / 8; omega)
  have e2 : ((idx_main_v17 (idx_main_v19 (idx_main_v23 j))) 0).val = (j 1).val % 8 := by
    show ((j 0).val * 4096 + (j 1).val) % 8 = (j 1).val % 8; omega
  rw [e1, e2]
  exact reference_sign _ _ (by omega)

/-- The reference's result array is `result` of its three arguments. -/
theorem reference_eq (x0 : IVec S8192x512 32) (x1 : IVec S4096x512 32) (x2 : FVec Ideal S4096 .f32) :
    val_main_v33 (F := Ideal) x0 x1 x2 = result x0 x1 x2 := by
  funext i
  rw [val_main_v33_apply, val_main_v30_apply, val_main_v32_apply, val_main_v31_apply]
  simp only [input_feature, weight_feature]
  have eb : idx_main_v31 (idx_main_v32 i) = ix1 (i 1) := funext fun a => by
    match a with
    | ⟨0, _⟩ => rfl
  rw [eb]
  show (∑ k : Fin 4096, bitSign (x0 (ix2 (i 0) (wordOf k))) (k.val % 8) * bitSign (x1 (ix2 (i 1) (wordOf k))) (k.val % 8))
      + x2 (ix1 (i 1)) = _
  rw [sum_features (fun p b => bitSign (x0 (ix2 (i 0) p)) b * bitSign (x1 (ix2 (i 1) p)) b)]
  rfl

end Cert.ReferenceIdeal.RefValue

end
-- ==== Proof.lean ====
/-
  A bit-packed ±1 linear layer: the kernel against its jnp reference, over the extended reals.

  Both programs take an 8192 × 512 array of packed input words, a 4096 × 512 array of packed weight words and a bias
  vector of length 4096.  Bits 0 to 7 of a word are eight ±1 features (a set bit is `+1`, a clear bit `-1`), and the
  result's entry `(r, c)` is the dot product of input row `r` and weight row `c` over all 4096 features, plus
  `bias c` (`Cert.BitLinear.result`, Proof/Spec.lean).

  * The kernel tiles the result into 8 × 4 blocks of 1024 × 1024.  For a block it forms, for each bit `k`, the matrix
    product of the two blocks' sign matrices of bit `k`, adds the eight products and then the bias row
    (Proof/KernelBlock.lean); block by block this is `result`, and the blocks tile the array (Proof/KernelValue.lean).
  * The reference unpacks every row into its 4096 features, feature `8·p + k` being bit `k` of word `p` as `2·bit - 1`,
    and takes one matrix product over the 4096 features, then adds the bias (Proof/RefValue.lean).
  * The two agree because `2·bit - 1` and "select `1` or `-1` on the bit" are the same sign (Proof/Signs.lean), and a sum
    over `k < 4096` of a term in `(k / 8, k % 8)` is the sum over the eight bits of the sums over the 512 words
    (`sum_features`): only the order of a finite sum changes, so no finiteness of the bias is used.

  The three frame claims are the generated frames of the two kernel programs and the reference's generated run with
  its result dropped; the idealization rewrote nothing, so `preserves` is trivial.
-/
import proofs.«420022_j77558519431327_1_alg».proof.Defs
import proofs.«420022_j77558519431327_1_alg».proof.Proof.Gen.Kernel
import proofs.«420022_j77558519431327_1_alg».proof.Proof.Gen.Kernel.Skeleton
import proofs.«420022_j77558519431327_1_alg».proof.Proof.Gen.Kernel.Launch
import proofs.«420022_j77558519431327_1_alg».proof.Proof.Gen.Kernel.Points
import proofs.«420022_j77558519431327_1_alg».proof.Proof.Gen.Kernel.Frame
import proofs.«420022_j77558519431327_1_alg».proof.Proof.Gen.KernelIdeal
import proofs.«420022_j77558519431327_1_alg».proof.Proof.Gen.KernelIdeal.Skeleton
import proofs.«420022_j77558519431327_1_alg».proof.Proof.Gen.KernelIdeal.Launch
import proofs.«420022_j77558519431327_1_alg».proof.Proof.Gen.KernelIdeal.Points
import proofs.«420022_j77558519431327_1_alg».proof.Proof.Gen.KernelIdeal.Frame
import proofs.«420022_j77558519431327_1_alg».proof.Proof.Gen.ReferenceIdeal
import proofs.«420022_j77558519431327_1_alg».proof.Proof.Gen.Pre_finite_inputs
import proofs.«420022_j77558519431327_1_alg».proof.Proof.Gen.KernelIdeal.Value
import proofs.«420022_j77558519431327_1_alg».proof.Proof.Gen.ReferenceIdeal.Run
import proofs.«420022_j77558519431327_1_alg».proof.Proof.Gen.ReferenceIdeal.Read
import proofs.«420022_j77558519431327_1_alg».proof.Proof.KernelValue
import proofs.«420022_j77558519431327_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at `result` of those
    arguments: the kernel's array block by block, the reference's as its operations' composed term. -/
theorem algebraic : Cert.algebraic_KernelIdeal_ReferenceIdeal := by
  intro m ρ m' ρ' _ hagree
  refine ⟨fun c => Cert.KernelIdeal.ArrayValue.kernelResult m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v33_eq _ _ _).trans (Cert.ReferenceIdeal.RefValue.reference_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
